-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "c_2_7" .f32 0x3E924925#32 ((2 / 7 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S2818048x8 : Shape := ⟨2, ![2818048, 8]⟩
abbrev S2818048x1 : Shape := ⟨2, ![2818048, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2818048x1 : S_.BroadcastsInDim S2818048x1 (![] : Fin 0 → Fin S2818048x1.rank)
  reducesTo_S2818048x1_S_d0_1 : S2818048x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S2818048x8 32) (main_arg2 : FVec F S2818048x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2818048x1 .f32 := Host.absf main_arg2
  let main_cst_0 : FVec F S_ .f32 := constant S_ .f32 0x7F800000#32
  let main_v5 : FVec F S2818048x1 .f32 := broadcastInDim S2818048x1 ![] bcast_S_S2818048x1 main_cst_0
  let main_v6 : IVec S2818048x1 1 := cmpf .olt main_v4 main_v5
  let main_c_1 : IVec S_ 1 := constantI S_ 1 1#1
  let main_v7 : IVec S_ 1 := (fun x v => Host.reduce IntOp.andi x v reducesTo_S2818048x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S2818048x8 : Shape := ⟨2, ![2818048, 8]⟩
abbrev S2818048x1 : Shape := ⟨2, ![2818048, 1]⟩
abbrev S11008 : Shape := ⟨1, ![11008]⟩
abbrev S4096 : Shape := ⟨1, ![4096]⟩
abbrev S8192x4096 : Shape := ⟨2, ![8192, 4096]⟩
abbrev S_ : Shape := ⟨0, ![]⟩
abbrev S4096x1 : Shape := ⟨2, ![4096, 1]⟩
abbrev S11008x2048 : Shape := ⟨2, ![11008, 2048]⟩
abbrev S11008x256 : Shape := ⟨2, ![11008, 256]⟩
abbrev S1x11008 : Shape := ⟨2, ![1, 11008]⟩
abbrev S8192x11008 : Shape := ⟨2, ![8192, 11008]⟩
abbrev S256x4096 : Shape := ⟨2, ![256, 4096]⟩
abbrev S128x2048 : Shape := ⟨2, ![128, 2048]⟩
abbrev S128x256 : Shape := ⟨2, ![128, 256]⟩
abbrev S1x128 : Shape := ⟨2, ![1, 128]⟩
abbrev S256x128 : Shape := ⟨2, ![256, 128]⟩
abbrev S128x256x1 : Shape := ⟨3, ![128, 256, 1]⟩
abbrev S128x256x8 : Shape := ⟨3, ![128, 256, 8]⟩
abbrev S128x4096 : Shape := ⟨2, ![128, 4096]⟩
abbrev S4x2048x11008 : Shape := ⟨3, ![4, 2048, 11008]⟩

abbrev nBuf : Space → Nat
  | .hbm => 18
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S2818048x8, .i32⟩
  | .hbm, ⟨2, _⟩ => ⟨S2818048x1, .f32⟩
  | .hbm, ⟨3, _⟩ => ⟨S11008, .f32⟩
  | .hbm, ⟨4, _⟩ => ⟨S4096, .i32⟩
  | .hbm, ⟨5, _⟩ => ⟨S4096, .i1⟩
  | .hbm, ⟨6, _⟩ => ⟨S8192x4096, .f32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S8192x4096, .f32⟩
  | .hbm, ⟨13, _⟩ => ⟨S11008x2048, .i32⟩
  | .hbm, ⟨14, _⟩ => ⟨S11008x256, .f32⟩
  | .hbm, ⟨15, _⟩ => ⟨S1x11008, .f32⟩
  | .hbm, ⟨16, _⟩ => ⟨S8192x11008, .f32⟩
  | .hbm, ⟨17, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S128x2048, .i32⟩
  | .local _ .vmem, ⟨3, _⟩ => ⟨S128x2048, .i32⟩
  | .local _ .vmem, ⟨4, _⟩ => ⟨S128x256, .f32⟩
  | .local _ .vmem, ⟨5, _⟩ => ⟨S128x256, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bcast_S_S4096 : S_.BroadcastsInDim S4096 (![] : Fin 0 → Fin S4096.rank)
  bcast_S4096_S4096x1_0 : S4096.BroadcastsInDim S4096x1 (![0] : Fin 1 → Fin S4096x1.rank)
  shapeCasts_S2818048x8_S11008x2048 : S2818048x8.ShapeCasts S11008x2048
  shapeCasts_S2818048x1_S11008x256 : S2818048x1.ShapeCasts S11008x256
  shapeCasts_S11008_S1x11008 : S11008.ShapeCasts S1x11008
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x256_S128x256x1 : S128x256.ShapeCasts S128x256x1
  shapeCasts_S128x256x1_S128x256x1 : S128x256x1.ShapeCasts S128x256x1
  broadcasts_S128x256x1_S128x256x8 : S128x256x1.Broadcasts S128x256x8
  shapeCasts_S128x256x8_S128x2048 : S128x256x8.ShapeCasts S128x2048
  concatenates_S128x2048_S128x2048_S128x4096_d1 : Shape.Concatenates [S128x2048, S128x2048] S128x4096 1
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S8192x11008_S4x2048x11008 : S8192x11008.ShapeCasts S4x2048x11008
  gather_S8192x4096_S4096x1_S8192x4096_0_1_n_n_1_1_81921_wf : GatherDims.WF S8192x4096 S4096x1 S8192x4096 [0] [1] [] [1] [] 1 ![8192, 1]
  dot_S256x4096_S128x4096_S256x128_1_1_0_0_n_n_wf : DotDims.WF S256x4096 S128x4096 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S11008x2048.size a
  hwx0_1 : ∀ i : grid0.Coords, EltTy.bits .i32 = 32 ∨ (Rect.block (s := S11008x2048) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S11008x256.size a
  hwx0_2 : ∀ i : grid0.Coords, EltTy.bits .f32 = 32 ∨ (Rect.block (s := S11008x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x11008.size a
  hwx0_3 : ∀ i : grid0.Coords, EltTy.bits .f32 = 32 ∨ (Rect.block (s := S1x11008) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S8192x11008.size a
  hwx0_4 : ∀ i : grid0.Coords, EltTy.bits .f32 = 32 ∨ (Rect.block (s := S8192x11008) S256x128.size (cc0_transform_4 i) (hinb0_4 i)).WholeWords (EltTy.packing .f32)

variable [Facts₀]

def gather_S8192x4096_S4096x1_S8192x4096_0_1_n_n_1_1_81921 : GatherDims S8192x4096 S4096x1 S8192x4096 where
  offsetDims := [0]
  collapsedSliceDims := [1]
  operandBatchingDims := []
  startIndicesBatchingDims := []
  startIndexMap := [1]
  indexVectorDim := 1
  sliceSizes := ![8192, 1]
  wf := gather_S8192x4096_S4096x1_S8192x4096_0_1_n_n_1_1_81921_wf
def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf

abbrev win0_0 : Pipeline.Window sig grid0 :=
  Pipeline.Window.ofSpec (Memref.whole main_v5) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S2818048x8 : Shape := ⟨2, ![2818048, 8]⟩
abbrev S2818048x1 : Shape := ⟨2, ![2818048, 1]⟩
abbrev S11008 : Shape := ⟨1, ![11008]⟩
abbrev S_ : Shape := ⟨0, ![]⟩
abbrev S2818048x8x1 : Shape := ⟨3, ![2818048, 8, 1]⟩
abbrev S2818048x8x2 : Shape := ⟨3, ![2818048, 8, 2]⟩
abbrev S2818048x16 : Shape := ⟨2, ![2818048, 16]⟩
abbrev S45088768 : Shape := ⟨1, ![45088768]⟩
abbrev S11008x4096 : Shape := ⟨2, ![11008, 4096]⟩
abbrev S4x2048x11008 : Shape := ⟨3, ![4, 2048, 11008]⟩
abbrev S1x1x11008 : Shape := ⟨3, ![1, 1, 11008]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2818048x8, .i32⟩
  | .hbm, ⟨2, _⟩ => ⟨S2818048x1, .f32⟩
  | .hbm, ⟨3, _⟩ => ⟨S11008, .f32⟩
  | .hbm, ⟨4, _⟩ => ⟨S_, .i32⟩
  | .hbm, ⟨5, _⟩ => ⟨S2818048x8, .i32⟩
  | .hbm, ⟨6, _⟩ => ⟨S2818048x8, .i32⟩
  | .hbm, ⟨7, _⟩ => ⟨S_, .i32⟩
  | .hbm, ⟨8, _⟩ => ⟨S2818048x8, .i32⟩
  | .hbm, ⟨9, _⟩ => ⟨S2818048x8, .i32⟩
  | .hbm, ⟨10, _⟩ => ⟨S_, .i32⟩
  | .hbm, ⟨11, _⟩ => ⟨S2818048x8, .i32⟩
  | .hbm, ⟨12, _⟩ => ⟨S2818048x8, .i32⟩
  | .hbm, ⟨13, _⟩ => ⟨S2818048x8x1, .i32⟩
  | .hbm, ⟨14, _⟩ => ⟨S2818048x8x1, .i32⟩
  | .hbm, ⟨15, _⟩ => ⟨S2818048x8x2, .i32⟩
  | .hbm, ⟨16, _⟩ => ⟨S2818048x16, .i32⟩
  | .hbm, ⟨17, _⟩ => ⟨S2818048x16, .f32⟩
  | .hbm, ⟨18, _⟩ => ⟨S_, .f32⟩
  | .hbm, ⟨19, _⟩ => ⟨S2818048x16, .f32⟩
  | .hbm, ⟨20, _⟩ => ⟨S2818048x16, .f32⟩
  | .hbm, ⟨21, _⟩ => ⟨S_, .f32⟩
  | .hbm, ⟨22, _⟩ => ⟨S2818048x1, .f32⟩
  | .hbm, ⟨23, _⟩ => ⟨S2818048x1, .f32⟩
  | .hbm, ⟨24, _⟩ => ⟨S2818048x16, .f32⟩
  | .hbm, ⟨25, _⟩ => ⟨S2818048x16, .f32⟩
  | .hbm, ⟨26, _⟩ => ⟨S2818048x16, .f32⟩
  | .hbm, ⟨27, _⟩ => ⟨S2818048x16, .f32⟩
  | .hbm, ⟨28, _⟩ => ⟨S45088768, .f32⟩
  | .hbm, ⟨29, _⟩ => ⟨S11008x4096, .f32⟩
  | .hbm, ⟨30, _⟩ => ⟨S4x2048x11008, .f32⟩
  | .hbm, ⟨31, _⟩ => ⟨S1x1x11008, .f32⟩
  | .hbm, ⟨32, _⟩ => ⟨S4x2048x11008, .f32⟩
  | .hbm, ⟨33, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S2818048x8 : S_.BroadcastsInDim S2818048x8 (![] : Fin 0 → Fin S2818048x8.rank)
  bcast_S2818048x8_S2818048x8x1_0_1 : S2818048x8.BroadcastsInDim S2818048x8x1 (![0, 1] : Fin 2 → Fin S2818048x8x1.rank)
  concatenates_S2818048x8x1_S2818048x8x1_S2818048x8x2_d2 : Shape.Concatenates [S2818048x8x1, S2818048x8x1] S2818048x8x2 2
  shapeCasts_S2818048x8x2_S2818048x16 : S2818048x8x2.ShapeCasts S2818048x16
  bcast_S_S2818048x16 : S_.BroadcastsInDim S2818048x16 (![] : Fin 0 → Fin S2818048x16.rank)
  bcast_S_S2818048x1 : S_.BroadcastsInDim S2818048x1 (![] : Fin 0 → Fin S2818048x1.rank)
  bcast_S2818048x1_S2818048x16_0_1 : S2818048x1.BroadcastsInDim S2818048x16 (![0, 1] : Fin 2 → Fin S2818048x16.rank)
  shapeCasts_S2818048x16_S45088768 : S2818048x16.ShapeCasts S45088768
  shapeCasts_S45088768_S11008x4096 : S45088768.ShapeCasts S11008x4096
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Dequant.lean ====
/-
  The mathematics both programs compute, stated once and free of either program.

  A weight matrix W : [11008, 4096] is stored in groups of sixteen consecutive entries of its row-major
  flattening. Group g = o * 256 + i / 16 holds entries (o, i) for the sixteen i sharing i / 16; its eight
  words q[g, k] each pack two 3-bit codes, the low three bits for position 2k of the group and the next three
  bits for position 2k + 1, and it has one scale n[g, 0]. The entry is

      W[o, i] = code / 7 * (2 * n) - n        (as the reference writes it)
              = code * (n * (2/7)) - n        (as the kernel writes it),

  equal on the extended reals because multiplication there is commutative and associative and dividing by the
  real 7 is multiplying by 1/7. The result is y[b, s, o] = sum over i of x[b, s, i] * W[o, i], plus bias[o].

  The kernel lays the columns of W out as [all even positions, all odd positions] and permutes the columns of
  x the same way; the sum over the 4096 columns is unchanged by that bijection.
-/
import Idealize.ShloMosaic.PureOps.Ideal
import Idealize.ShloMosaic.PureOps.Ideal.Laws
import Idealize.ShloMosaic.Lib.ValueIdx

noncomputable section

namespace Cert.Dequant

open Idealize.ShloMosaic Idealize.ShloMosaic.ValueIdx

/-- The shapes of the four arguments and of the result. -/
abbrev SX : Shape := ⟨3, ![4, 2048, 4096]⟩
abbrev SQ : Shape := ⟨2, ![2818048, 8]⟩
abbrev SN : Shape := ⟨2, ![2818048, 1]⟩
abbrev SB : Shape := ⟨1, ![11008]⟩
abbrev SY : Shape := ⟨3, ![4, 2048, 11008]⟩

/-- The group that holds entry (o, i) of the weight matrix. -/
def grp (o : Fin 11008) (i : Fin 4096) : Fin 2818048 := ⟨o.val * 256 + i.val / 16, by omega⟩
/-- The word of its group that holds entry (o, i): positions 2k and 2k + 1 share word k. -/
def slot (i : Fin 4096) : Fin 8 := ⟨i.val % 16 / 2, by omega⟩

/-- The 3-bit code of entry (o, i): the low three bits of its word at an even position, the next three at an
    odd one. -/
def code (q : IVec SQ 32) (o : Fin 11008) (i : Fin 4096) : BitVec 32 :=
  if i.val % 2 = 0 then IntOp.andi (q (ix2 (grp o i) (slot i))) 7#32
  else IntOp.andi (IntOp.shrsi .host (q (ix2 (grp o i) (slot i))) 3#32) 7#32

/-- The entry as the reference writes it: the code over seven, times twice the scale, less the scale. -/
def wRef (q : IVec SQ 32) (n : FVec Ideal SN .f32) (o : Fin 11008) (i : Fin 4096) : EReal :=
  Ideal.div (((code q o i).toInt : ℝ) : EReal) (Ideal.ofBits .f32 0x40E00000#32)
      * (Ideal.ofBits .f32 0x40000000#32 * n (ix2 (grp o i) (0 : Fin 1)))
    - n (ix2 (grp o i) (0 : Fin 1))

/-- The entry as the kernel writes it: the code times (the scale times 2/7), less the scale. -/
def wKer (q : IVec SQ 32) (n : FVec Ideal SN .f32) (o : Fin 11008) (i : Fin 4096) : EReal :=
  (((code q o i).toInt : ℝ) : EReal) * (n (ix2 (grp o i) (0 : Fin 1)) * ((2 / 7 : ℝ) : EReal))
    - n (ix2 (grp o i) (0 : Fin 1))

/-- The two float words of the reference are the reals 7 and 2. -/
theorem seven_eq : Ideal.ofBits .f32 0x40E00000#32 = ((7 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- On every pair of extended reals: a / 7 * (2 * n) = a * (n * (2/7)). Only commutativity and associativity of
    the product are used, so no finiteness. -/
theorem scale_law (a n : EReal) :
    Ideal.div a ((7 : ℝ) : EReal) * (((2 : ℝ) : EReal) * n) = a * (n * ((2 / 7 : ℝ) : EReal)) := by
  rw [Ideal.div_coe (by norm_num : (7 : ℝ) ≠ 0)]
  have h : ((2 / 7 : ℝ) : EReal) = ((1 / 7 : ℝ) : EReal) * ((2 : ℝ) : EReal) := by
    rw [← EReal.coe_mul]; norm_num
  rw [h, mul_assoc a, mul_comm n, mul_assoc (((1 / 7 : ℝ)) : EReal)]

/-- The two spellings of an entry are one extended real. -/
theorem wKer_eq_wRef (q : IVec SQ 32) (n : FVec Ideal SN .f32) (o : Fin 11008) (i : Fin 4096) :
    wKer q n o i = wRef q n o i := by
  unfold wKer wRef
  rw [seven_eq, two_eq, scale_law]

/-- The result at (b, s, o): the row of x against row o of the weight matrix, plus the bias. -/
def Gat (x : FVec Ideal SX .f32) (q : IVec SQ 32) (n : FVec Ideal SN .f32) (b : FVec Ideal SB .f32)
    (bb : Fin 4) (s : Fin 2048) (o : Fin 11008) : EReal :=
  (∑ i : Fin 4096, x (ix3 bb s i) * wRef q n o i) + b (ix1 o)

/-- The result array as ONE function of the four argument arrays. -/
def G (x : FVec Ideal SX .f32) (q : IVec SQ 32) (n : FVec Ideal SN .f32) (b : FVec Ideal SB .f32) :
    FVec Ideal SY .f32 :=
  fun j => Gat x q n b (j 0) (j 1) (j 2)

theorem G_apply (x : FVec Ideal SX .f32) (q : IVec SQ 32) (n : FVec Ideal SN .f32) (b : FVec Ideal SB .f32)
    (bb : Fin 4) (s : Fin 2048) (o : Fin 11008) : G x q n b (ix3 bb s o) = Gat x q n b bb s o := rfl

/-! ## The kernel's column order -/

/-- Column c of the kernel's layout is column 2c of the matrix in the first half (the even positions) and
    column 2(c - 2048) + 1 in the second (the odd positions). -/
def perm (c : Fin 4096) : Fin 4096 :=
  if h : c.val < 2048 then ⟨2 * c.val, by omega⟩ else ⟨2 * (c.val - 2048) + 1, by omega⟩

/-- Its inverse: an even column goes to its half, an odd one to 2048 plus its half. -/
def permInv (i : Fin 4096) : Fin 4096 :=
  if h : i.val % 2 = 0 then ⟨i.val / 2, by omega⟩ else ⟨2048 + i.val / 2, by omega⟩

theorem perm_val_lo (c : Fin 4096) (h : c.val < 2048) : (perm c).val = 2 * c.val := by
  unfold perm; rw [dif_pos h]
theorem perm_val_hi (c : Fin 4096) (h : ¬ c.val < 2048) : (perm c).val = 2 * (c.val - 2048) + 1 := by
  unfold perm; rw [dif_neg h]

/-- The column order is a bijection of the 4096 columns. -/
def permEquiv : Fin 4096 ≃ Fin 4096 where
  toFun := perm
  invFun := permInv
  left_inv c := by
    apply Fin.ext
    by_cases h : c.val < 2048
    · have e := perm_val_lo c h
      unfold permInv; rw [dif_pos (by omega)]; show (perm c).val / 2 = c.val; omega
    · have e := perm_val_hi c h
      unfold permInv; rw [dif_neg (by omega)]; show 2048 + (perm c).val / 2 = c.val; omega
  right_inv i := by
    apply Fin.ext
    by_cases h : i.val % 2 = 0
    · have e : (permInv i).val = i.val / 2 := by unfold permInv; rw [dif_pos h]
      rw [perm_val_lo _ (by omega), e]; omega
    · have e : (permInv i).val = 2048 + i.val / 2 := by unfold permInv; rw [dif_neg h]
      rw [perm_val_hi _ (by omega), e]; omega

/-- A sum over the columns in the kernel's order is the sum over the columns. -/
theorem sum_perm (f : Fin 4096 → EReal) : ∑ c : Fin 4096, f (perm c) = ∑ i : Fin 4096, f i :=
  Equiv.sum_comp permEquiv f

/-- The group, word and parity of the matrix column behind a kernel column, first half. -/
theorem grp_perm_lo (o : Fin 11008) (c : Fin 4096) (h : c.val < 2048) :
    (grp o (perm c)).val = o.val * 256 + c.val / 8 := by
  unfold grp; show o.val * 256 + (perm c).val / 16 = _; rw [perm_val_lo c h]; omega
theorem slot_perm_lo (c : Fin 4096) (h : c.val < 2048) : (slot (perm c)).val = c.val % 8 := by
  unfold slot; show (perm c).val % 16 / 2 = _; rw [perm_val_lo c h]; omega
theorem grp_perm_hi (o : Fin 11008) (c : Fin 4096) (h : ¬ c.val < 2048) :
    (grp o (perm c)).val = o.val * 256 + (c.val - 2048) / 8 := by
  unfold grp; show o.val * 256 + (perm c).val / 16 = _; rw [perm_val_hi c h]; omega
theorem slot_perm_hi (c : Fin 4096) (h : ¬ c.val < 2048) : (slot (perm c)).val = (c.val - 2048) % 8 := by
  unfold slot; show (perm c).val % 16 / 2 = _; rw [perm_val_hi c h]; omega

/-- The result in the kernel's column order: the same sum taken over the permuted columns, each weight in the
    kernel's spelling. -/
theorem Gat_kernel_order (x : FVec Ideal SX .f32) (q : IVec SQ 32) (n : FVec Ideal SN .f32) (b : FVec Ideal SB .f32)
    (bb : Fin 4) (s : Fin 2048) (o : Fin 11008) :
    Gat x q n b bb s o = (∑ k : Fin 4096, x (ix3 bb s (perm k)) * wKer q n o (perm k)) + b (ix1 o) := by
  unfold Gat
  rw [sum_perm (fun i => x (ix3 bb s i) * wKer q n o i)]
  simp only [wKer_eq_wRef]

/-! ## One tile of the kernel's weights -/

/-- A tile of 128 rows of the packed words, [128, 2048], and of the scales, [128, 256]. -/
abbrev SQB : Shape := ⟨2, ![128, 2048]⟩
abbrev SNB : Shape := ⟨2, ![128, 256]⟩

/-- For a 32-bit word the arithmetic shift by three is the same on the vector unit and on the host. -/
theorem shrsi_three (x : BitVec 32) : IntOp.shrsi .vector x 3#32 = IntOp.shrsi .host x 3#32 := by
  unfold IntOp.shrsi
  rw [if_pos (by decide), if_pos (by decide)]

/-- Row r, column k of the weight tile the kernel builds from a tile of words and a tile of scales: columns
    below 2048 take the low code of word k with the scale of word k's group (eight words to a group), the others
    the high code of word k - 2048 likewise. -/
def wBlk (qb : IVec SQB 32) (nb : FVec Ideal SNB .f32) (r : Fin 128) (k : Fin 4096) : EReal :=
  if h : k.val < 2048 then
    (((IntOp.andi (qb (ix2 r (⟨k.val, h⟩ : Fin 2048))) 7#32).toInt : ℝ) : EReal)
        * (nb (ix2 r (⟨k.val / 8, by omega⟩ : Fin 256)) * ((2 / 7 : ℝ) : EReal))
      - nb (ix2 r (⟨k.val / 8, by omega⟩ : Fin 256))
  else
    (((IntOp.andi (IntOp.shrsi .vector (qb (ix2 r (⟨k.val - 2048, by omega⟩ : Fin 2048))) 3#32) 7#32).toInt : ℝ) : EReal)
        * (nb (ix2 r (⟨(k.val - 2048) / 8, by omega⟩ : Fin 256)) * ((2 / 7 : ℝ) : EReal))
      - nb (ix2 r (⟨(k.val - 2048) / 8, by omega⟩ : Fin 256))

/-- When the tile's row r is row o of the reshaped arrays — word h of row o is word h % 8 of group o * 256 + h / 8,
    scale g of row o is the scale of group o * 256 + g — the tile's entry (r, k) is the matrix entry (o, perm k). -/
theorem wBlk_eq_wKer (q : IVec SQ 32) (n : FVec Ideal SN .f32) (qb : IVec SQB 32) (nb : FVec Ideal SNB .f32)
    (o : Fin 11008) (r : Fin 128)
    (hq : ∀ h : Fin 2048, qb (ix2 r h)
      = q (ix2 (⟨o.val * 256 + h.val / 8, by omega⟩ : Fin 2818048) (⟨h.val % 8, by omega⟩ : Fin 8)))
    (hn : ∀ g : Fin 256, nb (ix2 r g) = n (ix2 (⟨o.val * 256 + g.val, by omega⟩ : Fin 2818048) (0 : Fin 1)))
    (k : Fin 4096) : wBlk qb nb r k = wKer q n o (perm k) := by
  unfold wBlk wKer code
  by_cases h : k.val < 2048
  · have e1 : grp o (perm k) = ⟨o.val * 256 + k.val / 8, by omega⟩ := Fin.ext (grp_perm_lo o k h)
    have e2 : slot (perm k) = ⟨k.val % 8, by omega⟩ := Fin.ext (slot_perm_lo k h)
    rw [dif_pos h, if_pos (by rw [perm_val_lo k h]; omega), hq ⟨k.val, h⟩, hn ⟨k.val / 8, by omega⟩, e1, e2]
  · have e1 : grp o (perm k) = ⟨o.val * 256 + (k.val - 2048) / 8, by omega⟩ := Fin.ext (grp_perm_hi o k h)
    have e2 : slot (perm k) = ⟨(k.val - 2048) % 8, by omega⟩ := Fin.ext (slot_perm_hi k h)
    rw [dif_neg h, if_neg (by rw [perm_val_hi k h]; omega), hq ⟨k.val - 2048, by omega⟩,
      hn ⟨(k.val - 2048) / 8, by omega⟩, e1, e2, shrsi_three]

/-! ## The result as the kernel's region leaves it: one [8192, 11008] array -/

abbrev SYF : Shape := ⟨2, ![8192, 11008]⟩

/-- Row m of the flattened result is (m / 2048, m % 2048) of the result. -/
def Y (x : FVec Ideal SX .f32) (q : IVec SQ 32) (n : FVec Ideal SN .f32) (b : FVec Ideal SB .f32) :
    FVec Ideal SYF .f32 :=
  fun j => Gat x q n b ⟨(j 0).val / 2048, by have := idx2_lt0 j; omega⟩ ⟨(j 0).val % 2048, by omega⟩ (j 1)

theorem Y_apply (x : FVec Ideal SX .f32) (q : IVec SQ 32) (n : FVec Ideal SN .f32) (b : FVec Ideal SB .f32)
    (mm : Fin 8192) (o : Fin 11008) :
    Y x q n b (ix2 mm o) = Gat x q n b ⟨mm.val / 2048, by omega⟩ ⟨mm.val % 2048, by omega⟩ o := rfl

end Cert.Dequant

end
-- ==== Proof.RefValue.lean ====
/-
  The reference's result is the function G of its four arguments: its dequantized matrix at (o, i) is the entry of
  group o * 256 + i / 16 at position i % 16, and its contraction runs over the 4096 columns in their own order.
-/
import proofs.«426574_j47656957116916_2_alg».proof.Proof.Gen.ReferenceIdeal.Read
import proofs.«426574_j47656957116916_2_alg».proof.Proof.Dequant
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Dequant

/-- The joined array at last coordinate 0 is the first piece: the low three bits of the word. -/
theorem v8_low (x1 : IVec S2818048x8 32) (g : Fin 2818048) (k : Fin 8) :
    val_main_v8 (F := Ideal) x1 (ix3 g k (0 : Fin 2)) = IntOp.andi (x1 (ix2 g k)) 7#32 := by
  unfold val_main_v8
  refine (concatenate_pair_apply_left (t := S2818048x8x2) (s₁ := S2818048x8x1) (s₂ := S2818048x8x1) 2 _ _ _ (ix3 g k (0 : Fin 2)) rfl (ix3 g k (0 : Fin 1)) (fun b => by
    match b with
    | ⟨0, _⟩ => rfl
    | ⟨1, _⟩ => rfl
    | ⟨2, _⟩ => rfl)).trans ?_
  rw [val_main_v6_apply, val_main_v1_apply, val_main_v0_apply, val_main_c_apply]
  have e : idx_main_v6 (ix3 g k (0 : Fin 1)) = ix2 g k := by
    funext a
    match a with
    | ⟨0, _⟩ => rfl
    | ⟨1, _⟩ => rfl
  rw [e]

/-- The joined array at last coordinate 1 is the second piece: the next three bits of the word. -/
theorem v8_high (x1 : IVec S2818048x8 32) (g : Fin 2818048) (k : Fin 8) :
    val_main_v8 (F := Ideal) x1 (ix3 g k (1 : Fin 2)) = IntOp.andi (IntOp.shrsi .host (x1 (ix2 g k)) 3#32) 7#32 := by
  unfold val_main_v8
  refine (concatenate_pair_apply_right (t := S2818048x8x2) (s₁ := S2818048x8x1) (s₂ := S2818048x8x1) 2 _ _ _ (ix3 g k (1 : Fin 2)) rfl rfl (ix3 g k (0 : Fin 1)) (fun b hb => by
    match b with
    | ⟨0, _⟩ => rfl
    | ⟨1, _⟩ => rfl
    | ⟨2, _⟩ => exact absurd rfl hb) rfl).trans ?_
  rw [val_main_v7_apply, val_main_v5_apply, val_main_v3_apply, val_main_v2_apply, val_main_c_0_apply, val_main_v4_apply, val_main_c_1_apply]
  have e : idx_main_v7 (ix3 g k (0 : Fin 1)) = ix2 g k := by
    funext a
    match a with
    | ⟨0, _⟩ => rfl
    | ⟨1, _⟩ => rfl
  rw [e]

/-- Position jj of group g in the [2818048, 16] array of codes: word jj / 2 of the group, its low three bits at
    an even position and the next three at an odd one (row-major: (g, k, p) flattens to (g, 2k + p)). -/
theorem v9_at (x1 : IVec S2818048x8 32) (g : Fin 2818048) (jj : Fin 16) :
    val_main_v9 (F := Ideal) x1 (ix2 g jj) =
      if jj.val % 2 = 0 then IntOp.andi (x1 (ix2 g (⟨jj.val / 2, by omega⟩ : Fin 8))) 7#32
      else IntOp.andi (IntOp.shrsi .host (x1 (ix2 g (⟨jj.val / 2, by omega⟩ : Fin 8))) 3#32) 7#32 := by
  have hj : jj.val < 16 := jj.isLt
  have hg : g.val < 2818048 := g.isLt
  rw [val_main_v9_apply]
  by_cases h : jj.val % 2 = 0
  · rw [if_pos h]
    have e : idx_main_v9 (ix2 g jj) = ix3 g (⟨jj.val / 2, by omega⟩ : Fin 8) (0 : Fin 2) := by
      funext a
      match a with
      | ⟨0, _⟩ => exact Fin.ext (by show (g.val * 16 + jj.val) / 16 = g.val; omega)
      | ⟨1, _⟩ => exact Fin.ext (by show (g.val * 16 + jj.val) / 2 % 8 = jj.val / 2; omega)
      | ⟨2, _⟩ => exact Fin.ext (by show (g.val * 16 + jj.val) % 2 = 0; omega)
    rw [e, v8_low]
  · rw [if_neg h]
    have e : idx_main_v9 (ix2 g jj) = ix3 g (⟨jj.val / 2, by omega⟩ : Fin 8) (1 : Fin 2) := by
      funext a
      match a with
      | ⟨0, _⟩ => exact Fin.ext (by show (g.val * 16 + jj.val) / 16 = g.val; omega)
      | ⟨1, _⟩ => exact Fin.ext (by show (g.val * 16 + jj.val) / 2 % 8 = jj.val / 2; omega)
      | ⟨2, _⟩ => exact Fin.ext (by show (g.val * 16 + jj.val) % 2 = 1; omega)
    rw [e, v8_high]

/-- The reference's dequantized matrix at (o, i) is the entry of group o * 256 + i / 16 at position i % 16:
    (o * 4096 + i) / 16 = o * 256 + i / 16 and (o * 4096 + i) % 16 = i % 16. -/
theorem v20_at (x1 : IVec S2818048x8 32) (x2 : FVec Ideal S2818048x1 .f32) (o : Fin 11008) (i : Fin 4096) :
    val_main_v20 (F := Ideal) x1 x2 (ix2 o i) = wRef x1 x2 o i := by
  have hi : i.val < 4096 := i.isLt
  have ho : o.val < 11008 := o.isLt
  rw [val_main_v20_apply, val_main_v19_apply]
  have e : idx_main_v19 (idx_main_v20 (ix2 o i)) = ix2 (grp o i) (⟨i.val % 16, by omega⟩ : Fin 16) := by
    funext a
    match a with
    | ⟨0, _⟩ => exact Fin.ext (by show (o.val * 4096 + i.val) / 16 = o.val * 256 + i.val / 16; omega)
    | ⟨1, _⟩ => exact Fin.ext (by show (o.val * 4096 + i.val) % 16 = i.val % 16; omega)
  rw [e, val_main_v18_apply, val_main_v16_apply, val_main_v12_apply, val_main_v10_apply, v9_at,
    val_main_v11_apply, val_main_cst_apply, val_main_v15_apply, val_main_v14_apply, val_main_v13_apply,
    val_main_cst_2_apply, val_main_v17_apply]
  have e15 : idx_main_v15 (ix2 (grp o i) (⟨i.val % 16, by omega⟩ : Fin 16)) = ix2 (grp o i) (0 : Fin 1) := by
    funext a
    match a with
    | ⟨0, _⟩ => rfl
    | ⟨1, _⟩ => rfl
  have e17 : idx_main_v17 (ix2 (grp o i) (⟨i.val % 16, by omega⟩ : Fin 16)) = ix2 (grp o i) (0 : Fin 1) := by
    funext a
    match a with
    | ⟨0, _⟩ => rfl
    | ⟨1, _⟩ => rfl
  rw [e15, e17]
  have ec : (if (⟨i.val % 16, by omega⟩ : Fin 16).val % 2 = 0
        then IntOp.andi (x1 (ix2 (grp o i) (⟨(⟨i.val % 16, by omega⟩ : Fin 16).val / 2, by omega⟩ : Fin 8))) 7#32
        else IntOp.andi (IntOp.shrsi .host (x1 (ix2 (grp o i) (⟨(⟨i.val % 16, by omega⟩ : Fin 16).val / 2, by omega⟩ : Fin 8))) 3#32) 7#32)
      = code x1 o i := by
    unfold code slot
    by_cases h : i.val % 2 = 0
    · rw [if_pos h, if_pos (show i.val % 16 % 2 = 0 by omega)]
    · rw [if_neg h, if_neg (show ¬ i.val % 16 % 2 = 0 by omega)]
  rw [ec]
  rfl

/-- The reference's last stage is G. -/
theorem ref_is_G (x0 : FVec Ideal S4x2048x4096 .f32) (x1 : IVec S2818048x8 32) (x2 : FVec Ideal S2818048x1 .f32)
    (x3 : FVec Ideal S11008 .f32) :
    val_main_v24 (F := Ideal) x0 x1 x2 x3 = G x0 x1 x2 x3 := by
  funext j
  obtain ⟨bb, s, o, rfl⟩ : ∃ bb s o, j = ix3 bb s o := ⟨j 0, j 1, j 2, eq_ix3 j⟩
  show _ = Gat x0 x1 x2 x3 bb s o
  unfold Gat
  rw [val_main_v24_apply, val_main_v21_apply, val_main_v23_apply, val_main_v22_apply]
  have eb : idx_main_v22 (idx_main_v23 (ix3 bb s o)) = ix1 o := by
    funext a
    match a with
    | ⟨0, _⟩ => rfl
  rw [eb]
  show (∑ k : Fin 4096, x0 (lidx_main_v21 (ix3 bb s o) k) * val_main_v20 (F := Ideal) x1 x2 (ridx_main_v21 (ix3 bb s o) k)) + x3 (ix1 o) = _
  congr 1
  refine Finset.sum_congr rfl fun k _ => ?_
  have el : lidx_main_v21 (ix3 bb s o) k = ix3 bb s k := by
    funext a
    match a with
    | ⟨0, _⟩ => rfl
    | ⟨1, _⟩ => rfl
    | ⟨2, _⟩ => rfl
  have er : ridx_main_v21 (ix3 bb s o) k = ix2 o k := by
    funext a
    match a with
    | ⟨0, _⟩ => rfl
    | ⟨1, _⟩ => rfl
  rw [el, er, v20_at]

end Cert.ReferenceIdeal.RefValue

end
-- ==== Proof.ColumnGather.lean ====
/-
  A gather that picks COLUMNS of a matrix: result (r, k) is the operand at (r, c k), where c k is the k-th start
  index read as a signed integer and clamped into the operand's column range. This is what a column selection
  x[:, idx] of a rank-2 array lowers to: the operand's row axis is the one offset axis, its column axis is
  collapsed and start-indexed, and the start indices are an [K, 1] column.
-/
import Idealize.ShloMosaic.PureOps.ShapeOps
import Idealize.ShloMosaic.Lib.ValueIdx

namespace Cert.ColumnGather

open Idealize.ShloMosaic Idealize.ShloMosaic.ValueIdx

variable {α : Type}

/-- The dimension numbers of a column selection from an [R, C] operand by K start indices. -/
abbrev colsDims (R C K : Nat)
    (wf : GatherDims.WF ⟨2, ![R, C]⟩ ⟨2, ![K, 1]⟩ ⟨2, ![R, K]⟩ [0] [1] [] [1] [] 1 ![R, 1]) :
    GatherDims ⟨2, ![R, C]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- The column selection read at (r, k): row r of the operand at the clamped k-th start index. -/
theorem gather_cols_apply {R C K w : Nat} (hC : 0 < C)
    (wf : GatherDims.WF ⟨2, ![R, C]⟩ ⟨2, ![K, 1]⟩ ⟨2, ![R, K]⟩ [0] [1] [] [1] [] 1 ![R, 1])
    (x : (⟨2, ![R, C]⟩ : Shape).Idx → α) (idx : IVec ⟨2, ![K, 1]⟩ w) (r : Fin R) (k : Fin K) :
    Host.gather (colsDims R C K wf) x idx (ix2 r k)
      = x (ix2 r ⟨min (idx (ix2 k (0 : Fin 1))).toInt.toNat (C - 1), by omega⟩) := by
  unfold Host.gather
  congr 1
  funext a
  refine Fin.ext ?_
  match a with
  | ⟨0, _⟩ =>
    show (colsDims R C K wf).start (ix2 r k) idx 0 + (colsDims R C K wf).batchCoord (ix2 r k) 0
      + (colsDims R C K wf).offCoord (ix2 r k) 0 = r.val
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept _ _).mpr ⟨show (0 : Fin 2) ∉ ([1] : List (Fin 2)) by decide, List.not_mem_nil⟩)]
    have hkept : (colsDims R C K wf).sKept = [(0 : Fin 2)] := rfl
    have hi : List.idxOf (0 : Fin 2) (colsDims R C K wf).sKept = 0 := by rw [hkept]; rfl
    have hread : ∀ (n : Nat) (h : n < ([0] : List (Fin 2)).length), n = 0 →
        ((ix2 r k : (⟨2, ![R, K]⟩ : Shape).Idx) (([0] : List (Fin 2))[n]'h)).val = r.val := by
      intro n h e; subst e; rfl
    simp only [Nat.zero_add]
    exact hread _ _ hi
  | ⟨1, _⟩ =>
    show (colsDims R C K wf).start (ix2 r k) idx 1 + (colsDims R C K wf).batchCoord (ix2 r k) 1
      + (colsDims R C K wf).offCoord (ix2 r k) 1 = min (idx (ix2 k (0 : Fin 1))).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims R C K wf).startIndexMap from List.mem_singleton.mpr rfl)]
    have hsi : (colsDims R C K wf).siIdx (ix2 r k) ⟨List.idxOf (1 : Fin 2) (colsDims R C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

end Cert.ColumnGather
-- ==== Proof.HostArrays.lean ====
/-
  What the kernel's region finds in the four arrays it stages, read at an index of the program's arguments:
  the activations with their columns permuted (a reshape, then a column selection by a constant index table), the
  packed words and the scales each reshaped to one row per output feature, the bias as one row.
-/
import proofs.«426574_j47656957116916_2_alg».proof.Proof.Gen.KernelIdeal.Frame
import proofs.«426574_j47656957116916_2_alg».proof.Proof.Dequant
import proofs.«426574_j47656957116916_2_alg».proof.Proof.ColumnGather
import Idealize.ShloMosaic.Lib.Pipeline.Value
import Idealize.ShloMosaic.Lib.ValueIdx
import Idealize.ShloMosaic.Lib.StableHlo.Run

noncomputable section

namespace Cert.KernelIdeal.HostArrays

open Cert.KernelIdeal Cert.KernelIdeal.Gen Idealize.ShloMosaic Idealize.ShloMosaic.TcCoe Idealize.ShloMosaic.ValueIdx
open Idealize.SL.Sem Cert.Dequant

variable (m : (ℓ : Loc nD τ sig) → Buf (Elt Ideal) ℓ)

/-- The index table holds the kernel's column order: entry i, read as a signed integer, is perm i. -/
theorem table_eq : ∀ i : Fin 4096, (lit0 i).toInt.toNat = (perm i).val := by decide +kernel

/-- The start indices of the column selection as the host operations build them: the table, offset by 4096 where an
    all-false mask holds (nowhere), laid out as one column. -/
abbrev startIdx : IVec S4096x1 32 :=
  broadcastInDim S4096x1 ![0] bcast_S4096_S4096x1_0
    (select (constantI S4096 1 0#1)
      (addi (fun i => lit0 (S4096.rowMajor i)) (broadcastInDim S4096 ![] bcast_S_S4096 (constantI S_ 32 4096#32)))
      fun i => lit0 (S4096.rowMajor i))

/-- The k-th start index is the table's k-th entry: the column at (k, 0) is the vector at k, and the mask is false
    everywhere, so the selection keeps the table. -/
theorem startIdx_apply (k : Fin 4096) : startIdx (ix2 k (0 : Fin 1)) = lit0 k := by
  refine (broadcastInDim_apply ![0] bcast_S4096_S4096x1_0 _ (ix2 k (0 : Fin 1)) (ix1 k) (fun a => match a with
    | ⟨0, _⟩ => by show k.val = if (4096 : Nat) = 1 then 0 else k.val; rw [if_neg (by decide)])).trans ?_
  rw [select_apply]
  refine (select_zero _ _).trans ?_
  exact congrArg lit0 (Fin.ext (Shape.rowMajor_val_one (ix1 k)))

/-- The clamped k-th start index is the column perm k. -/
theorem startIdx_col (k : Fin 4096) :
    min (startIdx (ix2 k (0 : Fin 1))).toInt.toNat (4096 - 1) = (perm k).val := by
  rw [startIdx_apply, table_eq]
  have := (perm k).isLt
  omega

/-- The permuted activations as the host operations' term: the column selection, by the start indices, of the
    activations reshaped to [8192, 4096]. -/
theorem v5_eq (c : Dev nD) :
    (V m c main_v5 : S8192x4096.Idx → EReal)
      = Host.gather gather_S8192x4096_S4096x1_S8192x4096_0_1_n_n_1_1_81921
          (shapeCast S8192x4096 (m ((c : Thread nD τ).loc main_arg0) : S4x2048x4096.Idx → EReal) shapeCasts_S4x2048x4096_S8192x4096)
          startIdx := by
  show StableHlo.after hostOps0 (fun b => m (c, b)) (Proc.devRef .tc main_v5) = _
  after_results
  rfl

/-- The three reshaped arrays as the host operations' terms. -/
theorem v6_eq (c : Dev nD) :
    (V m c main_v6 : S11008x2048.Idx → BitVec 32)
      = shapeCast S11008x2048 (m ((c : Thread nD τ).loc main_arg1) : S2818048x8.Idx → BitVec 32) shapeCasts_S2818048x8_S11008x2048 := by
  show StableHlo.after hostOps0 (fun b => m (c, b)) (Proc.devRef .tc main_v6) = _
  after_results
  rfl
theorem v7_eq (c : Dev nD) :
    (V m c main_v7 : S11008x256.Idx → EReal)
      = shapeCast S11008x256 (m ((c : Thread nD τ).loc main_arg2) : S2818048x1.Idx → EReal) shapeCasts_S2818048x1_S11008x256 := by
  show StableHlo.after hostOps0 (fun b => m (c, b)) (Proc.devRef .tc main_v7) = _
  after_results
  rfl
theorem v8_eq (c : Dev nD) :
    (V m c main_v8 : S1x11008.Idx → EReal)
      = shapeCast S1x11008 (m ((c : Thread nD τ).loc main_arg3) : S11008.Idx → EReal) shapeCasts_S11008_S1x11008 := by
  show StableHlo.after hostOps0 (fun b => m (c, b)) (Proc.devRef .tc main_v8) = _
  after_results
  rfl

/-- Row r, column k of the permuted activations is the activation at (r / 2048, r % 2048, perm k). -/
theorem x_cols (c : Dev nD) (r : Fin 8192) (k : Fin 4096) :
    (V m c main_v5 : S8192x4096.Idx → EReal) (ix2 r k)
      = (m ((c : Thread nD τ).loc main_arg0) : S4x2048x4096.Idx → EReal)
          (ix3 (⟨r.val / 2048, by omega⟩ : Fin 4) (⟨r.val % 2048, by omega⟩ : Fin 2048) (perm k)) := by
  rw [v5_eq m c]
  -- the column selection at (r, k) reads row r at the clamped k-th start index
  refine (Cert.ColumnGather.gather_cols_apply (R := 8192) (C := 4096) (K := 4096) (by decide)
    gather_S8192x4096_S4096x1_S8192x4096_0_1_n_n_1_1_81921.wf _ startIdx r k).trans ?_
  -- the reshape: position r * 4096 + perm k of the flattening is ((r / 2048) * 2048 + r % 2048) * 4096 + perm k
  have hv := startIdx_col k
  exact shapeCast_apply _ shapeCasts_S4x2048x4096_S8192x4096 _ _
    (by rewrite [Shape.rowMajor_val_three, Shape.rowMajor_val_two]
        show (r.val / 2048 * 2048 + r.val % 2048) * 4096 + (perm k).val
          = r.val * 4096 + min (startIdx (ix2 k (0 : Fin 1))).toInt.toNat (4096 - 1)
        rw [hv]; omega)

/-- Word h of row o of the reshaped packed words is word h % 8 of group o * 256 + h / 8. -/
theorem q_rows (c : Dev nD) (o : Fin 11008) (h : Fin 2048) :
    (V m c main_v6 : S11008x2048.Idx → BitVec 32) (ix2 o h)
      = (m ((c : Thread nD τ).loc main_arg1) : S2818048x8.Idx → BitVec 32)
          (ix2 (⟨o.val * 256 + h.val / 8, by omega⟩ : Fin 2818048) (⟨h.val % 8, by omega⟩ : Fin 8)) := by
  rw [v6_eq m c]
  exact shapeCast_apply _ shapeCasts_S2818048x8_S11008x2048 (ix2 o h) _
    (by rewrite [Shape.rowMajor_val_two, Shape.rowMajor_val_two]
        show (o.val * 256 + h.val / 8) * 8 + h.val % 8 = o.val * 2048 + h.val; omega)

/-- Scale g of row o of the reshaped scales is the scale of group o * 256 + g. -/
theorem n_rows (c : Dev nD) (o : Fin 11008) (g : Fin 256) :
    (V m c main_v7 : S11008x256.Idx → EReal) (ix2 o g)
      = (m ((c : Thread nD τ).loc main_arg2) : S2818048x1.Idx → EReal)
          (ix2 (⟨o.val * 256 + g.val, by omega⟩ : Fin 2818048) (0 : Fin 1)) := by
  rw [v7_eq m c]
  exact shapeCast_apply _ shapeCasts_S2818048x1_S11008x256 (ix2 o g) _
    (by rewrite [Shape.rowMajor_val_two, Shape.rowMajor_val_two]
        show (o.val * 256 + g.val) * 1 + 0 = o.val * 256 + g.val; omega)

/-- The bias laid out as one row. -/
theorem b_row (c : Dev nD) (o : Fin 11008) :
    (V m c main_v8 : S1x11008.Idx → EReal) (ix2 (0 : Fin 1) o)
      = (m ((c : Thread nD τ).loc main_arg3) : S11008.Idx → EReal) (ix1 o) := by
  rw [v8_eq m c]
  exact shapeCast_apply _ shapeCasts_S11008_S1x11008 (ix2 (0 : Fin 1) o) (ix1 o)
    (by rewrite [Shape.rowMajor_val_one, Shape.rowMajor_val_two]
        show o.val = 0 * 11008 + o.val; omega)

end Cert.KernelIdeal.HostArrays

end
-- ==== Proof.Payload.lean ====
/-
  What one grid point stores: entry (p, r) of its [256, 128] output tile is the product of row p of the
  activation tile with row r of the weight tile the body builds from the packed words and the scales, summed over
  the 4096 columns, plus entry r of the bias row.
-/
import proofs.«426574_j47656957116916_2_alg».proof.Proof.Gen.KernelIdeal.Skeleton
import proofs.«426574_j47656957116916_2_alg».proof.Proof.Dequant
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx Cert.Dequant

/-- The named constant of the body is the rational 2/7 on the extended reals. -/
theorem c27 : Named.named (F := Ideal) κ "c_2_7" (φ := .f32) 0x3E924925#32 = ((2 / 7 : ℝ) : EReal) :=
  IdealRules.named_const.ideal_named_scalar _ _ _ _ rfl

/-- The scales repeated eight times along the row: entry (r, h) is the scale of word h's group. -/
def normRep (v2 : FVec Ideal S128x256 .f32) : FVec Ideal S128x2048 .f32 :=
  shapeCast S128x2048
    (broadcastTo S128x256x8
      (shapeCast S128x256x1
        (shapeCast S128x256x1 (shapeCast S128x256 v2 shapeCasts_S128x256_S128x256) shapeCasts_S128x256_S128x256x1)
        shapeCasts_S128x256x1_S128x256x1)
      broadcasts_S128x256x1_S128x256x8)
    shapeCasts_S128x256x8_S128x2048

/-- The repeated scales times the named 2/7. -/
def cRep (v2 : FVec Ideal S128x256 .f32) : FVec Ideal S128x2048 .f32 :=
  mulf (normRep v2) (broadcast S128x2048 (Named.named (F := Ideal) κ "c_2_7" (φ := .f32) 0x3E924925#32))

/-- The half of the weight tile from the low codes. -/
def wLow (v0 : IVec S128x2048 32) (v2 : FVec Ideal S128x256 .f32) : FVec Ideal S128x2048 .f32 :=
  subf (mulf (sitofp .f32 (andi (shapeCast S128x2048 v0 shapeCasts_S128x2048_S128x2048) (broadcast S128x2048 7#32)))
    (cRep v2)) (normRep v2)

/-- The half of the weight tile from the high codes. -/
def wHigh (v0 : IVec S128x2048 32) (v2 : FVec Ideal S128x256 .f32) : FVec Ideal S128x2048 .f32 :=
  subf (mulf (sitofp .f32 (andi (shrsi (shapeCast S128x2048 v0 shapeCasts_S128x2048_S128x2048) (broadcast S128x2048 3#32))
    (broadcast S128x2048 7#32))) (cRep v2)) (normRep v2)

/-- The weight tile: the two halves side by side. -/
def wTile (v0 : IVec S128x2048 32) (v2 : FVec Ideal S128x256 .f32) : FVec Ideal S128x4096 .f32 :=
  concatenate S128x4096 1 [⟨S128x2048, wLow v0 v2⟩, ⟨S128x2048, wHigh v0 v2⟩] concatenates_S128x2048_S128x2048_S128x4096_d1

/-- The repeated scale at (r, h) is the scale of word h's group, h / 8: the row-major position of (r, h / 8, h % 8)
    in [128, 256, 8] is that of (r, h) in [128, 2048]. -/
theorem normRep_apply (v2 : FVec Ideal S128x256 .f32) (r : Fin 128) (h : Fin 2048) :
    normRep v2 (ix2 r h) = v2 (ix2 r (⟨h.val / 8, by omega⟩ : Fin 256)) := by
  unfold normRep
  rw [shapeCast_self, shapeCast_self]
  refine (shapeCast_apply _ shapeCasts_S128x256x8_S128x2048 (ix2 r h)
    (ix3 r (⟨h.val / 8, by omega⟩ : Fin 256) (⟨h.val % 8, by omega⟩ : Fin 8)) (by
      rw [Shape.rowMajor_val_three, Shape.rowMajor_val_two]
      show (r.val * 256 + h.val / 8) * 8 + h.val % 8 = r.val * 2048 + h.val
      omega)).trans ?_
  refine (broadcastTo_apply _ broadcasts_S128x256x1_S128x256x8 _
    (ix3 r (⟨h.val / 8, by omega⟩ : Fin 256) (0 : Fin 1)) (fun a => by
      match a with
      | ⟨0, _⟩ => rfl
      | ⟨1, _⟩ => rfl
      | ⟨2, _⟩ => rfl)).trans ?_
  exact shapeCast_apply _ shapeCasts_S128x256_S128x256x1 _ (ix2 r (⟨h.val / 8, by omega⟩ : Fin 256)) (by
      rw [Shape.rowMajor_val_three, Shape.rowMajor_val_two]
      show r.val * 256 + h.val / 8 = (r.val * 256 + h.val / 8) * 1 + 0
      omega)

/-- The stored value is the product of the activation tile with the weight tile, plus the bias row on every row. -/
theorem pay_eq (v0 : IVec S128x2048 32) (v2 : FVec Ideal S128x256 .f32) (v24 : FVec Ideal S256x4096 .f32)
    (v28 : FVec Ideal S1x128 .f32) :
    k0_pay1 (F := Ideal) v0 v2 v24 v28
      = addf (matmul dot_S256x4096_S128x4096_S256x128_1_1_0_0_n_n none
            (truncf .bf16 (shapeCast S256x4096 v24 shapeCasts_S256x4096_S256x4096) bitsLt_bf16_f32)
            (truncf .bf16 (wTile v0 v2) bitsLt_bf16_f32) (constant S256x128 .f32 0x00000000#32))
          (broadcastTo S256x128 (shapeCast S1x128 v28 shapeCasts_S1x128_S1x128) broadcasts_S1x128_S256x128) := rfl

/-- The scaled repeated scale at (r, h). -/
theorem cRep_apply (v2 : FVec Ideal S128x256 .f32) (r : Fin 128) (h : Fin 2048) :
    cRep v2 (ix2 r h) = v2 (ix2 r (⟨h.val / 8, by omega⟩ : Fin 256)) * ((2 / 7 : ℝ) : EReal) := by
  show normRep v2 (ix2 r h) * Named.named (F := Ideal) κ "c_2_7" (φ := .f32) 0x3E924925#32 = _
  rw [c27]
  exact congrArg (· * ((2 / 7 : ℝ) : EReal)) (normRep_apply v2 r h)

/-- The low half at (r, h): the low code of word h, times its group's scale times 2/7, less the scale. -/
theorem wLow_apply (v0 : IVec S128x2048 32) (v2 : FVec Ideal S128x256 .f32) (r : Fin 128) (h : Fin 2048) :
    wLow v0 v2 (ix2 r h)
      = (((IntOp.andi (v0 (ix2 r h)) 7#32).toInt : ℝ) : EReal)
          * (v2 (ix2 r (⟨h.val / 8, by omega⟩ : Fin 256)) * ((2 / 7 : ℝ) : EReal))
        - v2 (ix2 r (⟨h.val / 8, by omega⟩ : Fin 256)) := by
  show FloatOps.sitofp (F := Ideal) .f32 (IntOp.andi (shapeCast S128x2048 v0 shapeCasts_S128x2048_S128x2048 (ix2 r h)) 7#32)
      * cRep v2 (ix2 r h) - normRep v2 (ix2 r h) = _
  rw [cRep_apply, shapeCast_self]
  exact congrArg (_ - ·) (normRep_apply v2 r h)

/-- The high half at (r, h): the same with the next three bits of word h. -/
theorem wHigh_apply (v0 : IVec S128x2048 32) (v2 : FVec Ideal S128x256 .f32) (r : Fin 128) (h : Fin 2048) :
    wHigh v0 v2 (ix2 r h)
      = (((IntOp.andi (IntOp.shrsi .vector (v0 (ix2 r h)) 3#32) 7#32).toInt : ℝ) : EReal)
          * (v2 (ix2 r (⟨h.val / 8, by omega⟩ : Fin 256)) * ((2 / 7 : ℝ) : EReal))
        - v2 (ix2 r (⟨h.val / 8, by omega⟩ : Fin 256)) := by
  show FloatOps.sitofp (F := Ideal) .f32
        (IntOp.andi (IntOp.shrsi .vector (shapeCast S128x2048 v0 shapeCasts_S128x2048_S128x2048 (ix2 r h)) 3#32) 7#32)
      * cRep v2 (ix2 r h) - normRep v2 (ix2 r h) = _
  rw [cRep_apply, shapeCast_self]
  exact congrArg (_ - ·) (normRep_apply v2 r h)

/-- Entry (r, k) of the weight tile is the weight the specification names there. -/
theorem wTile_apply (v0 : IVec S128x2048 32) (v2 : FVec Ideal S128x256 .f32) (r : Fin 128) (k : Fin 4096) :
    wTile v0 v2 (ix2 r k) = wBlk v0 v2 r k := by
  unfold wBlk
  by_cases h : k.val < 2048
  · rw [dif_pos h]
    refine (concatenate_pair_apply_left (t := S128x4096) (s₁ := S128x2048) (s₂ := S128x2048) (1 : Fin 2)
      (wLow v0 v2) (wHigh v0 v2) concatenates_S128x2048_S128x2048_S128x4096_d1 (ix2 r k) rfl
      (ix2 r (⟨k.val, h⟩ : Fin 2048)) (fun b => by
        match b with
        | ⟨0, _⟩ => rfl
        | ⟨1, _⟩ => rfl)).trans ?_
    exact wLow_apply v0 v2 r ⟨k.val, h⟩
  · rw [dif_neg h]
    refine (concatenate_pair_apply_right (t := S128x4096) (s₁ := S128x2048) (s₂ := S128x2048) (1 : Fin 2)
      (wLow v0 v2) (wHigh v0 v2) concatenates_S128x2048_S128x2048_S128x4096_d1 (ix2 r k) rfl rfl
      (ix2 r (⟨k.val - 2048, by omega⟩ : Fin 2048)) (fun b hb => by
        match b with
        | ⟨0, _⟩ => rfl
        | ⟨1, _⟩ => exact absurd rfl hb) (by
        show k.val - 2048 + 2048 = k.val
        omega)).trans ?_
    exact wHigh_apply v0 v2 r ⟨k.val - 2048, by omega⟩

/-! The operand indices of the product, axis by axis. -/

/-- Left operand, axis 0: the output's row. -/
theorem lhs_dot_0 (i : S256x128.Idx) (q : dot_S256x4096_S128x4096_S256x128_1_1_0_0_n_n.contr.Idx) :
    (dot_S256x4096_S128x4096_S256x128_1_1_0_0_n_n.lhsIdx i q 0).val = (i 0).val := by
  unfold DotDims.lhsIdx
  rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
  rfl
/-- Left operand, axis 1: the contraction coordinate. -/
theorem lhs_dot_1 (i : S256x128.Idx) (q : dot_S256x4096_S128x4096_S256x128_1_1_0_0_n_n.contr.Idx) :
    (dot_S256x4096_S128x4096_S256x128_1_1_0_0_n_n.lhsIdx i q 1).val = (q ⟨0, by decide⟩).val :=
  dot_S256x4096_S128x4096_S256x128_1_1_0_0_n_n.lhsIdx_val_of_single rfl i q
/-- Right operand, axis 0: the output's column. -/
theorem rhs_dot_0 (i : S256x128.Idx) (q : dot_S256x4096_S128x4096_S256x128_1_1_0_0_n_n.contr.Idx) :
    (dot_S256x4096_S128x4096_S256x128_1_1_0_0_n_n.rhsIdx i q 0).val = (i 1).val := by
  unfold DotDims.rhsIdx
  rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
  rfl
/-- Right operand, axis 1: the contraction coordinate. -/
theorem rhs_dot_1 (i : S256x128.Idx) (q : dot_S256x4096_S128x4096_S256x128_1_1_0_0_n_n.contr.Idx) :
    (dot_S256x4096_S128x4096_S256x128_1_1_0_0_n_n.rhsIdx i q 1).val = (q ⟨0, by decide⟩).val :=
  dot_S256x4096_S128x4096_S256x128_1_1_0_0_n_n.rhsIdx_val_of_single rfl i q

/-- The product into the zero tile at (p, r): row p of the left operand against row r of the right one. -/
theorem dot_apply (x : FVec Ideal S256x4096 .bf16) (w : FVec Ideal S128x4096 .bf16) (p : Fin 256) (r : Fin 128) :
    matmul dot_S256x4096_S128x4096_S256x128_1_1_0_0_n_n none x w (constant S256x128 .f32 0x00000000#32) (ix2 p r)
      = ∑ k : Fin 4096, x (ix2 p k) * w (ix2 r k) := by
  simp only [matmul]
  rw [Ideal.matmul_constant_zero_apply, ← Equiv.sum_comp (ValueIdx.contrEquiv1 dot_S256x4096_S128x4096_S256x128_1_1_0_0_n_n 4096 rfl rfl).symm]
  refine Finset.sum_congr rfl fun k _ => ?_
  have hk := ValueIdx.contrEquiv1_symm_val dot_S256x4096_S128x4096_S256x128_1_1_0_0_n_n 4096 rfl rfl k
  have el : dot_S256x4096_S128x4096_S256x128_1_1_0_0_n_n.lhsIdx (ix2 p r) ((ValueIdx.contrEquiv1 dot_S256x4096_S128x4096_S256x128_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S256x4096_S128x4096_S256x128_1_1_0_0_n_n.rhsIdx (ix2 p r) ((ValueIdx.contrEquiv1 dot_S256x4096_S128x4096_S256x128_1_1_0_0_n_n 4096 rfl rfl).symm k) = ix2 r k := funext fun a => Fin.ext (by
    match a with
    | ⟨0, _⟩ => exact rhs_dot_0 _ _
    | ⟨1, _⟩ => exact (rhs_dot_1 _ _).trans hk)
  rw [el, er]

/-- The stored tile at (p, r). -/
theorem pay_apply (v0 : IVec S128x2048 32) (v2 : FVec Ideal S128x256 .f32) (v24 : FVec Ideal S256x4096 .f32)
    (v28 : FVec Ideal S1x128 .f32) (p : Fin 256) (r : Fin 128) :
    k0_pay1 (F := Ideal) v0 v2 v24 v28 (ix2 p r)
      = (∑ k : Fin 4096, v24 (ix2 p k) * wBlk v0 v2 r k) + v28 (ix2 (0 : Fin 1) r) := by
  rw [pay_eq, addf_apply, dot_apply, broadcastTo_1b_ab_apply, shapeCast_self, shapeCast_self]
  refine congrArg (· + v28 (ix2 (0 : Fin 1) r)) (Finset.sum_congr rfl fun k _ => ?_)
  show v24 (ix2 p k) * wTile v0 v2 (ix2 r k) = _
  rw [wTile_apply]

end Cert.KernelIdeal.Payload

end
-- ==== Proof.Region.lean ====
/-
  What the kernel's one region leaves in its output array. Grid point t = (t / 86, t % 86) holds rows
  256 * (t / 86) .. + 256 of the permuted activations, rows 128 * (t % 86) .. + 128 of the reshaped words and
  scales and columns 128 * (t % 86) .. + 128 of the bias row, and writes back tile (t / 86, t % 86) of the
  [8192, 11008] output. Entry (p, r) of what it stores is the row-times-row sum of the payload; read through the
  tiles, that is the specification's Y at (256 * (t / 86) + p, 128 * (t % 86) + r). The 32 x 86 tiles cover the array.
-/
import proofs.«426574_j47656957116916_2_alg».proof.Proof.Gen.KernelIdeal.Frame
import proofs.«426574_j47656957116916_2_alg».proof.Proof.Dequant
import proofs.«426574_j47656957116916_2_alg».proof.Proof.HostArrays
import proofs.«426574_j47656957116916_2_alg».proof.Proof.Payload
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.ShloMosaic.ValueIdx
open Idealize.SL.Sem Cert.Dequant
open Idealize.ShloMosaic.Pipeline (Dat Cfg Window)

variable (m : (ℓ : Loc nD τ sig) → Buf (Elt Ideal) ℓ)

/-- The four argument arrays at their literal types. -/
abbrev xA (c : Dev nD) : FVec Ideal SX .f32 := m ((c : Thread nD τ).loc main_arg0)
abbrev qA (c : Dev nD) : IVec SQ 32 := m ((c : Thread nD τ).loc main_arg1)
abbrev nA (c : Dev nD) : FVec Ideal SN .f32 := m ((c : Thread nD τ).loc main_arg2)
abbrev bA (c : Dev nD) : FVec Ideal SB .f32 := m ((c : Thread nD τ).loc main_arg3)

/-- The four input tiles of a grid point at their literal types. -/
abbrev xT (c : Dev nD) (t : Fin cfg0.N) : FVec Ideal S256x4096 .f32 := iblk m c 0 t
abbrev qT (c : Dev nD) (t : Fin cfg0.N) : IVec S128x2048 32 := iblk m c 1 t
abbrev nT (c : Dev nD) (t : Fin cfg0.N) : FVec Ideal S128x256 .f32 := iblk m c 2 t
abbrev bT (c : Dev nD) (t : Fin cfg0.N) : FVec Ideal S1x128 .f32 := iblk m c 3 t

theorem hz : (![0, 0] : Fin 2 → Nat) = fun _ => 0 := funext fun a => by fin_cases a <;> rfl

/-- The printed index maps over the grid: point t is tile (t / 86, t % 86); the activations follow the row tile, the
    words, scales and bias the column tile. -/
theorem idx_facts : ∀ t : Fin cfg0.N,
    win0_4.index t (0 : Fin 2) = t.val / 86 ∧ win0_4.index t (1 : Fin 2) = t.val % 86
    ∧ win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = t.val % 86 ∧ win0_2.index t (1 : Fin 2) = 0
    ∧ win0_3.index t (0 : Fin 2) = 0 ∧ win0_3.index t (1 : Fin 2) = t.val % 86 :=
  (by decide +kernel : ∀ t : Fin grid0.N, _)

theorem t_lt (t : Fin cfg0.N) : t.val < 2752 := by
  have h : t.val < cfg0.N := t.isLt
  have e : cfg0.N = 2752 := N_0
  omega

/-- The activation tile read at (p, k). -/
theorem xT_apply (c : Dev nD) (t : Fin cfg0.N) (p : Fin 256) (k : Fin 4096) :
    xT m c t (ix2 p k) = (V m c main_v5 : S8192x4096.Idx → EReal)
      (ix2 (⟨256 * (t.val / 86) + p.val, by have := t_lt t; omega⟩ : Fin 8192) k) := by
  obtain ⟨-, -, e0, e1, -⟩ := idx_facts t
  show (V m c main_v5 : S8192x4096.Idx → EReal) (((cfg0.win 0).blk t).view.emb (ix2 p k)) = _
  refine congrArg _ (funext fun a => Fin.ext ?_)
  match a with
  | ⟨0, _⟩ => show win0_0.index t (0 : Fin 2) * 256 + 1 * p.val = 256 * (t.val / 86) + p.val; omega
  | ⟨1, _⟩ => show win0_0.index t (1 : Fin 2) * 4096 + 1 * k.val = k.val; omega

/-- The tile of packed words read at (r, h). -/
theorem qT_apply (c : Dev nD) (t : Fin cfg0.N) (r : Fin 128) (h : Fin 2048) :
    qT m c t (ix2 r h) = (V m c main_v6 : S11008x2048.Idx → BitVec 32)
      (ix2 (⟨128 * (t.val % 86) + r.val, by omega⟩ : Fin 11008) h) := by
  obtain ⟨-, -, -, -, e0, e1, -⟩ := idx_facts t
  show (V m c main_v6 : S11008x2048.Idx → BitVec 32) (((cfg0.win 1).blk t).view.emb (ix2 r h)) = _
  refine congrArg _ (funext fun a => Fin.ext ?_)
  match a with
  | ⟨0, _⟩ => show win0_1.index t (0 : Fin 2) * 128 + 1 * r.val = 128 * (t.val % 86) + r.val; omega
  | ⟨1, _⟩ => show win0_1.index t (1 : Fin 2) * 2048 + 1 * h.val = h.val; omega

/-- The tile of scales read at (r, g). -/
theorem nT_apply (c : Dev nD) (t : Fin cfg0.N) (r : Fin 128) (g : Fin 256) :
    nT m c t (ix2 r g) = (V m c main_v7 : S11008x256.Idx → EReal)
      (ix2 (⟨128 * (t.val % 86) + r.val, by omega⟩ : Fin 11008) g) := by
  obtain ⟨-, -, -, -, -, -, e0, e1, -⟩ := idx_facts t
  show (V m c main_v7 : S11008x256.Idx → EReal) (((cfg0.win 2).blk t).view.emb (ix2 r g)) = _
  refine congrArg _ (funext fun a => Fin.ext ?_)
  match a with
  | ⟨0, _⟩ => show win0_2.index t (0 : Fin 2) * 128 + 1 * r.val = 128 * (t.val % 86) + r.val; omega
  | ⟨1, _⟩ => show win0_2.index t (1 : Fin 2) * 256 + 1 * g.val = g.val; omega

/-- The bias tile read at (0, r). -/
theorem bT_apply (c : Dev nD) (t : Fin cfg0.N) (r : Fin 128) :
    bT m c t (ix2 (0 : Fin 1) r) = (V m c main_v8 : S1x11008.Idx → EReal)
      (ix2 (0 : Fin 1) (⟨128 * (t.val % 86) + r.val, by omega⟩ : Fin 11008)) := by
  obtain ⟨-, -, -, -, -, -, -, -, e0, e1⟩ := idx_facts t
  show (V m c main_v8 : S1x11008.Idx → EReal) (((cfg0.win 3).blk t).view.emb (ix2 (0 : Fin 1) r)) = _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * r.val = 128 * (t.val % 86) + r.val; omega

/-- WHAT POINT t WRITES BACK is tile t of Y of the argument arrays. -/
theorem flushed_eq (c : Dev nD) (t : Fin cfg0.N) :
    (dats m 0 c).flushed 4 t
      = ((cfg0.win 4).blk t).view.read (Elt Ideal) (Y (xA m c) (qA m c) (nA m c) (bA m c)) := by
  show (cfg0.win 4).cut (grid0.coords t) ((dats m 0 c).after 4 t) = _
  rw [after0_4]
  unfold out0_4
  rw [View.canon_unit_zero hz]
  simp only [View.ld_unit_zero (S := S128x2048) hz, View.ld_unit_zero (S := S128x256) hz,
    View.ld_unit_zero (S := S256x4096) hz, View.ld_unit_zero (S := S1x128) hz]
  obtain ⟨e0, e1, -⟩ := idx_facts t
  have ht := t_lt t
  funext j
  obtain ⟨p, r, rfl⟩ : ∃ (p : Fin 256) (r : Fin 128), j = ix2 p r := ⟨j 0, j 1, eq_ix2 j⟩
  show k0_pay1 (F := Ideal) (qT m c t) (nT m c t) (xT m c t) (bT m c t) (ix2 p r)
    = Y (xA m c) (qA m c) (nA m c) (bA m c) (((cfg0.win 4).blk t).view.emb (ix2 p r))
  have hemb : ((cfg0.win 4).blk t).view.emb (ix2 p r)
      = (ix2 (⟨256 * (t.val / 86) + p.val, by omega⟩ : Fin 8192) (⟨128 * (t.val % 86) + r.val, by omega⟩ : Fin 11008) : S8192x11008.Idx) := by
    funext a; apply Fin.ext
    match a with
    | ⟨0, _⟩ => show win0_4.index t (0 : Fin 2) * 256 + 1 * p.val = 256 * (t.val / 86) + p.val; omega
    | ⟨1, _⟩ => show win0_4.index t (1 : Fin 2) * 128 + 1 * r.val = 128 * (t.val % 86) + r.val; omega
  rw [hemb]
  refine (Payload.pay_apply (qT m c t) (nT m c t) (xT m c t) (bT m c t) p r).trans ?_
  rw [Y_apply, Gat_kernel_order, bT_apply, HostArrays.b_row]
  refine congrArg (· + _) (Finset.sum_congr rfl fun k _ => ?_)
  rw [xT_apply, HostArrays.x_cols]
  rw [wBlk_eq_wKer (qA m c) (nA m c) (qT m c t) (nT m c t) ⟨128 * (t.val % 86) + r.val, by omega⟩ r
    (fun h => (qT_apply m c t r h).trans (HostArrays.q_rows m c _ h))
    (fun g => (nT_apply m c t r g).trans (HostArrays.n_rows m c _ g)) k]

/-- An index of the output array is in point t's tile iff each coordinate is in the tile's range. -/
theorem mem_blk (t : Fin cfg0.N) (i : S8192x11008.Idx) :
    i ∈ ((cfg0.win 4).blk t).view.set ↔ ∀ a : Fin 2, win0_4.index t a * S256x128.size a ≤ (i a).val
      ∧ (i a).val < win0_4.index t a * S256x128.size a + S256x128.size a := by
  show i ∈ ((View.whole main_v9).slice (win0_4.rect t)).set ↔ _
  rw [View.set_slice_whole, Rect.mem_set_unit]
  exact Iff.rfl

/-- Every index of the output array lies in the tile of the point (row / 256) * 86 + column / 128. -/
theorem cover (i : S8192x11008.Idx) :
    ∃ t : Fin cfg0.N, (cfg0.win 4).flush t = true ∧ i ∈ ((cfg0.win 4).blk t).view.set := by
  have hi0 : (i 0).val < 8192 := (i 0).isLt
  have hi1 : (i 1).val < 11008 := (i 1).isLt
  have hN : cfg0.N = 2752 := N_0
  let t : Fin cfg0.N := ⟨(i 0).val / 256 * 86 + (i 1).val / 128, by rw [hN]; omega⟩
  have tv : t.val = (i 0).val / 256 * 86 + (i 1).val / 128 := rfl
  obtain ⟨e0, e1, -⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 128 ≤ (i 1).val ∧ (i 1).val < win0_4.index t (1 : Fin 2) * 128 + 128
    omega

/-- THE OUTPUT ARRAY after the region is Y of the argument arrays. -/
theorem region_result (c : Dev nD) :
    (dats m 0 c).arrAt 4 cfg0.N = Y (xA m c) (qA m c) (nA m c) (bA m c) :=
  (dats m 0 c).arrAt_eq_of_cover 4 (Y (xA m c) (qA m c) (nA m c) (bA m c)) (fun t _ => flushed_eq m c t) (cover)

end Cert.KernelIdeal.Region

end
-- ==== Proof.Result.lean ====
/-
  The kernel program's result: the one host operation after the region reshapes the [8192, 11008] output array to
  [4, 2048, 11008], so entry (b, s, o) of the result is entry (b * 2048 + s, o) of the array, which is the
  specification's G at (b, s, o).
-/
import proofs.«426574_j47656957116916_2_alg».proof.Proof.Region
import Idealize.ShloMosaic.Lib.StableHlo.Run

set_option maxRecDepth 16384

noncomputable section

namespace Cert.KernelIdeal.Result

open Cert.KernelIdeal Cert.KernelIdeal.Gen Cert.KernelIdeal.Region Idealize.ShloMosaic Idealize.ShloMosaic.TcCoe
open Idealize.ShloMosaic.ValueIdx Idealize.SL.Sem Cert.Dequant Idealize.ShloMosaic.StableHlo

variable (m : (ℓ : Loc nD τ sig) → Buf (Elt Ideal) ℓ) (ρ : Dev nD → PrngReg)

theorem result_eq (c : Dev nD) :
    Pipeline.afterTail₀ cfgs (dats m) 0 (V0 m) [hostOps1] c main_v10 = G (xA m c) (qA m c) (nA m c) (bA m c) := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.tc.devRef main_v9) = Y (xA m c) (qA m c) (nA m c) (bA m c) :=
    (Pipeline.withArrays_arr spec0 launch0.win.arr_inj c _ _ 4).trans (region_result m c)
  funext j
  obtain ⟨bb, s, o, rfl⟩ : ∃ (bb : Fin 4) (s : Fin 2048) (o : Fin 11008), j = ix3 bb s o := ⟨j 0, j 1, j 2, eq_ix3 j⟩
  show shapeCast S4x2048x11008 (Pipeline.withArrays (cfgs 0).spec c (V0 m c) (fun w => (dats m 0 c).arrAt w (cfgs 0).N)
      (Proc.tc.devRef main_v9)) shapeCasts_S8192x11008_S4x2048x11008 (ix3 bb s o) = _
  refine (congrArg (fun A => shapeCast S4x2048x11008 A shapeCasts_S8192x11008_S4x2048x11008 (ix3 bb s o)) hw).trans ?_
  refine (shapeCast_apply (Y (xA m c) (qA m c) (nA m c) (bA m c)) shapeCasts_S8192x11008_S4x2048x11008 (ix3 bb s o)
    (ix2 (⟨bb.val * 2048 + s.val, by omega⟩ : Fin 8192) o)
    (by rewrite [Shape.rowMajor_val_two, Shape.rowMajor_val_three]
        show (bb.val * 2048 + s.val) * 11008 + o.val = (bb.val * 2048 + s.val) * 11008 + o.val
        rfl)).trans ?_
  rw [Y_apply, G_apply]
  have e0 : (⟨(bb.val * 2048 + s.val) / 2048, by omega⟩ : Fin 4) = bb := Fin.ext (by show (bb.val * 2048 + s.val) / 2048 = bb.val; omega)
  have e1 : (⟨(bb.val * 2048 + s.val) % 2048, by omega⟩ : Fin 2048) = s := Fin.ext (by show (bb.val * 2048 + s.val) % 2048 = s.val; omega)
  rw [e0, e1]

/-- The kernel program's run with its result named: every weakly fair execution ends with the result buffer at G of
    the argument arrays and the arguments unchanged. -/
theorem run : θ_run defs (onTc (τ := τ) (main (F := Ideal))) ⟨m, fun _ => 0, ρ⟩ fun r => ∀ c : Dev nD,
      r.2.mem ((c : Thread nD τ).loc main_v10) = G (xA m c) (qA m c) (nA m c) (bA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  The kernel fuses the dequantization of a 3-bit block-quantized weight matrix W : [11008, 4096] with the product
  y = x W^T + bias, x : [4, 2048, 4096]. Each group of sixteen consecutive entries of W has eight packed words (two
  3-bit codes each) and one scale n; an entry is code * (n * 2/7) - n in the kernel and code / 7 * (2 * n) - n in the
  reference, one extended real by commutativity and associativity of the product alone (no finiteness is used), the
  kernel's constant 2/7 being the named rational. The kernel lays W's columns out as [even positions, odd positions]
  and permutes x's columns the same way by a constant index table, so its contraction runs over a bijective
  reordering of the reference's 4096 columns: the sums agree. Grid point (i, j) of 32 x 86 writes tile (i, j) of the
  [8192, 11008] output, the tiles cover it, and the final reshape gives the [4, 2048, 11008] result.

  Both programs therefore end at the one function G of the four argument arrays (Proof/Dequant.lean): the reference
  by its run read one operation at a time (Proof/RefValue.lean), the kernel by its stored tile at an index
  (Proof/Payload.lean), the arrays its region finds (Proof/HostArrays.lean, over Proof/ColumnGather.lean), the tiles
  assembled (Proof/Region.lean) and the reshape after the region (Proof/Result.lean).
-/
import proofs.«426574_j47656957116916_2_alg».proof.Defs
import proofs.«426574_j47656957116916_2_alg».proof.Proof.Gen.Kernel
import proofs.«426574_j47656957116916_2_alg».proof.Proof.Gen.Kernel.Skeleton
import proofs.«426574_j47656957116916_2_alg».proof.Proof.Gen.Kernel.Launch
import proofs.«426574_j47656957116916_2_alg».proof.Proof.Gen.Kernel.Points
import proofs.«426574_j47656957116916_2_alg».proof.Proof.Gen.Kernel.Frame
import proofs.«426574_j47656957116916_2_alg».proof.Proof.Gen.KernelIdeal
import proofs.«426574_j47656957116916_2_alg».proof.Proof.Gen.KernelIdeal.Skeleton
import proofs.«426574_j47656957116916_2_alg».proof.Proof.Gen.KernelIdeal.Launch
import proofs.«426574_j47656957116916_2_alg».proof.Proof.Gen.KernelIdeal.Points
import proofs.«426574_j47656957116916_2_alg».proof.Proof.Gen.KernelIdeal.Frame
import proofs.«426574_j47656957116916_2_alg».proof.Proof.Gen.ReferenceIdeal
import proofs.«426574_j47656957116916_2_alg».proof.Proof.Gen.Pre_finite_inputs
import proofs.«426574_j47656957116916_2_alg».proof.Proof.Gen.ReferenceIdeal.Run
import proofs.«426574_j47656957116916_2_alg».proof.Proof.Gen.ReferenceIdeal.Read
import proofs.«426574_j47656957116916_2_alg».proof.Proof.RefValue
import proofs.«426574_j47656957116916_2_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The one rewrite of the idealization: the kernel's constant is named the rational 2/7, which the table gives it. -/
theorem preserves : Cert.preserves_Kernel_KernelIdeal :=
  IdealRules.named_const.statement Cert.KernelIdeal.κ "c_2_7" .f32 0x3E924925#32 ((2 / 7 : ℝ) : EReal) rfl

/-- From memories agreeing on the arguments both idealized programs end at G of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v24_eq _ _ _ _).trans (Cert.ReferenceIdeal.RefValue.ref_is_G _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
